-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S128 .f32) (main_arg6 : FVec F S128x7 .f32) (main_arg7 : FVec F S7 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x7 .f32 := Host.absf main_arg6
  let main_cst_8 : FVec F S_ .f32 := constant S_ .f32 0x7F800000#32
  let main_v25 : FVec F S128x7 .f32 := broadcastInDim S128x7 ![] bcast_S_S128x7 main_cst_8
  let main_v26 : IVec S128x7 1 := cmpf .olt main_v24 main_v25
  let main_c_9 : IVec S_ 1 := constantI S_ 1 1#1
  let main_v27 : IVec S_ 1 := (fun x v => Host.reduce IntOp.andi x v reducesTo_S128x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S128x7 .f32) (main_arg7 : FVec F S7 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x7 : Shape := ⟨2, ![50000, 7]⟩
abbrev S2000x7 : Shape := ⟨2, ![2000, 7]⟩
abbrev S1x7 : Shape := ⟨2, ![1, 7]⟩

abbrev nBuf : Space → Nat
  | .hbm => 85
  | .vmem => 26
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x7, .f32⟩
  | .hbm, ⟨7, _⟩ => ⟨S7, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S50000x256, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S50000x128, .f32⟩
  | .hbm, ⟨84, _⟩ => ⟨S50000x7, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x7, .f32⟩
  | .local _ .vmem, ⟨23, _⟩ => ⟨S7, .f32⟩
  | .local _ .vmem, ⟨24, _⟩ => ⟨S2000x7, .f32⟩
  | .local _ .vmem, ⟨25, _⟩ => ⟨S2000x7, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S7 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x7 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x7_S128x7_0_0 : ∀ a, (![0, 0] : Fin 2 → Nat) a + S128x7.size a ≤ S128x7.size a
  h_S128x7 : 0 < S128x7.numel
  inb_S7_S7_0 : ∀ a, (![0] : Fin 1 → Nat) a + S7.size a ≤ S7.size a
  h_S7 : 0 < S7.numel
  shapeCasts_S7_S1x7 : S7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x7_S2000x7_1_0_0_1_n_n_wf : DotDims.WF S2000x128 S128x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x7.size a ≤ S128x7.size a
  hwx4_1 : ∀ i : grid4.Coords, EltTy.bits .f32 = 32 ∨ (Rect.block (s := S128x7) S128x7.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S7.size a ≤ S7.size a
  hwx4_2 : ∀ i : grid4.Coords, EltTy.bits .f32 = 32 ∨ (Rect.block (s := S7) S7.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x7.size a ≤ S50000x7.size a
  hwx4_3 : ∀ i : grid4.Coords, EltTy.bits .f32 = 32 ∨ (Rect.block (s := S50000x7) S2000x7.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S7.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S2000x7.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x7 : Shape := ⟨2, ![50000, 7]⟩
abbrev S1x7 : Shape := ⟨2, ![1, 7]⟩

abbrev nBuf : Space → Nat
  | .hbm => 135
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S128x7, .f32⟩
  | 7 => ⟨S7, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x256, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .i1⟩
  | 127 => ⟨S_, .f32⟩
  | _ => ⟨S50000x512, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x7, .f32⟩
  | 4 => ⟨S1x7, .f32⟩
  | 5 => ⟨S50000x7, .f32⟩
  | 6 => ⟨S50000x7, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x7_S50000x7_1_0_0_1_n_n_wf : DotDims.WF S50000x128 S128x7 S50000x7 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf

class Facts : Prop extends Facts₀ where

variable [Facts]
-- ==== Proof.RefOps.lean ====
/-
  The dense layers and the activations of the two-layer graph network, each as ONE function of whole arrays,
  spelled with the reference program's own operations, and each read at an index.

  * a dense layer  x ↦ x · W  is the host's contraction: entry (n, j) is the sum over k of x[n, k] · W[k, j];
  * bias + relu     x ↦ max (x + b, 0), the bias row added to every node's feature row;
  * bias + leaky    x ↦ if x + b ≥ 0 then x + b else 0.01 · (x + b);
  * the head        x ↦ x · W + b.

  The reference's stages over its own arguments are these functions of the stage before (the "stage is" lemmas,
  by unfolding), which is what lets the kernel's regions, proved equal to these functions of whatever arrays
  they find, be chained into the reference's result.
-/
import proofs.«135966_j55207509623327_1_alg».proof.Proof.RefRead

noncomputable section

namespace Cert.RefOps

open Cert.ReferenceIdeal Cert.ReferenceIdeal.Gen Cert.ReferenceIdeal.PRead Idealize.ShloMosaic Idealize.ShloMosaic.TcCoe Idealize.SL.Sem Idealize.ShloMosaic.StableHlo

variable {F : FTy → Type} [FloatOps F]

/-- An integer array as a buffer holds it (the float family does not enter). -/
abbrev IArr (F : FTy → Type) (s : Shape) := (⟨s, .i32⟩ : BufTy).Contents (Elt F)

/-! ## The first dense layer: the reference's own stage, of any two arrays -/

/-- x · W₁ for a [50000, 512] array and a [512, 256] array. -/
abbrev dense1 (x : FVec F S50000x512 .f32) (w : FVec F S512x256 .f32) : FVec F S50000x256 .f32 := val_main_v7 (F := F) x w

theorem dense1_apply (x : FVec Ideal S50000x512 .f32) (w : FVec Ideal S512x256 .f32) (i : S50000x256.Idx) :
    dense1 x w i = ∑ k : Fin 512, x (lidx_main_v7 i k) * w (ridx_main_v7 i k) := val_main_v7_apply x w i

/-! ## Bias and relu on [50000, 256] -/

/-- max (x + b, 0): the bias row broadcast over the nodes, then the maximum with the zero splat. -/
def biasRelu (x : FVec F S50000x256 .f32) (b : FVec F S256 .f32) : FVec F S50000x256 .f32 :=
  maximumf (addf x (val_main_v45 (F := F) b)) (val_main_call1_v0 (F := F))

/-- At node n, feature j: max (x[n, j] + b[j], 0). -/
theorem biasRelu_apply (x : FVec F S50000x256 .f32) (b : FVec F S256 .f32) (i : S50000x256.Idx) :
    biasRelu x b i = FloatOps.maximumf (F := F) (FloatOps.addf (F := F) (x i) (b (idx_main_v44 (idx_main_v45 i)))) (FloatOps.ofBits .f32 0x00000000#32) := by
  show FloatOps.maximumf (F := F) (FloatOps.addf (F := F) (x i) (val_main_v45 (F := F) b i)) (val_main_call1_v0 (F := F) i) = _
  rw [val_main_v45_apply, val_main_v44_apply, val_main_call1_v0_apply, val_main_call1_cst_apply]

/-- The reference's relu stage is bias + relu of its first aggregation. -/
theorem stage_v47 (x0 : FVec F S50000x512 .f32) (x1 : IArr F S2x800000) (x2 : FVec F S512x256 .f32) (x3 : FVec F S256 .f32) :
    val_main_v47 (F := F) x0 x1 x2 x3 = biasRelu (val_main_v43 (F := F) x0 x1 x2) x3 := rfl

/-! ## The second dense layer -/

/-- x · W₂ for a [50000, 256] array and a [256, 128] array. -/
def dense2 (x : FVec F S50000x256 .f32) (w : FVec F S256x128 .f32) : FVec F S50000x128 .f32 :=
  Host.dotGeneral dot_S50000x256_S256x128_S50000x128_1_0_0_1_n_n none x w

/-- Entry (n, j) is the sum over the 256 hidden features. -/
theorem dense2_apply (x : FVec Ideal S50000x256 .f32) (w : FVec Ideal S256x128 .f32) (i : S50000x128.Idx) :
    dense2 x w i = ∑ k : Fin 256, x (lidx_main_v48 i k) * w (ridx_main_v48 i k) := by
  unfold dense2
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = lidx_main_v48 i k := funext fun a => Fin.ext (by
    match a with
    | ⟨0, _⟩ => exact lhs_main_v48_0 _ _
    | ⟨1, _⟩ => exact (lhs_main_v48_1 _ _).trans hk)
  have er : dot_S50000x256_S256x128_S50000x128_1_0_0_1_n_n.rhsIdx i ((ValueIdx.contrEquiv1 dot_S50000x256_S256x128_S50000x128_1_0_0_1_n_n 256 rfl rfl).symm k) = ridx_main_v48 i k := funext fun a => Fin.ext (by
    match a with
    | ⟨0, _⟩ => exact (rhs_main_v48_0 _ _).trans hk
    | ⟨1, _⟩ => exact rhs_main_v48_1 _ _)
  rw [el, er]

theorem stage_v48 (x0 : FVec F S50000x512 .f32) (x1 : IArr F S2x800000) (x2 : FVec F S512x256 .f32) (x3 : FVec F S256 .f32) (x4 : FVec F S256x128 .f32) :
    val_main_v48 (F := F) x0 x1 x2 x3 x4 = dense2 (val_main_v47 (F := F) x0 x1 x2 x3) x4 := rfl

/-! ## Bias and leaky relu on [50000, 128] -/

/-- y = x + b; y where y ≥ 0, 0.01 · y elsewhere. -/
def biasLeaky (x : FVec F S50000x128 .f32) (b : FVec F S128 .f32) : FVec F S50000x128 .f32 :=
  select (cmpf (F := F) .oge (addf x (val_main_v86 (F := F) b)) (val_main_v88 (F := F)))
    (addf x (val_main_v86 (F := F) b))
    (mulf (val_main_v90 (F := F)) (addf x (val_main_v86 (F := F) b)))

theorem biasLeaky_apply (x : FVec F S50000x128 .f32) (b : FVec F S128 .f32) (i : S50000x128.Idx) :
    biasLeaky x b i
      = Scalar.select (FloatOps.cmpf (F := F) .oge (FloatOps.addf (F := F) (x i) (b (idx_main_v85 (idx_main_v86 i)))) (FloatOps.ofBits .f32 0x00000000#32))
          (FloatOps.addf (F := F) (x i) (b (idx_main_v85 (idx_main_v86 i))))
          (FloatOps.mulf (F := F) (FloatOps.ofBits .f32 0x3C23D70A#32) (FloatOps.addf (F := F) (x i) (b (idx_main_v85 (idx_main_v86 i))))) := by
  show Scalar.select (FloatOps.cmpf (F := F) .oge (FloatOps.addf (F := F) (x i) (val_main_v86 (F := F) b i)) (val_main_v88 (F := F) i))
      (FloatOps.addf (F := F) (x i) (val_main_v86 (F := F) b i))
      (FloatOps.mulf (F := F) (val_main_v90 (F := F) i) (FloatOps.addf (F := F) (x i) (val_main_v86 (F := F) b i))) = _
  rw [val_main_v86_apply, val_main_v85_apply, val_main_v88_apply, val_main_cst_20_apply, val_main_v90_apply, val_main_cst_21_apply]

theorem stage_v92 (x0 : FVec F S50000x512 .f32) (x1 : IArr F S2x800000) (x2 : FVec F S512x256 .f32) (x3 : FVec F S256 .f32) (x4 : FVec F S256x128 .f32) (x5 : FVec F S128 .f32) :
    val_main_v92 (F := F) x0 x1 x2 x3 x4 x5 = biasLeaky (val_main_v84 (F := F) x0 x1 x2 x3 x4) x5 := rfl

/-! ## The head: a dense layer with its bias -/

/-- x · Wₘ + bₘ for a [50000, 128] array, a [128, 7] array and a bias row of 7. -/
def head (x : FVec F S50000x128 .f32) (w : FVec F S128x7 .f32) (b : FVec F S7 .f32) : FVec F S50000x7 .f32 :=
  addf (Host.dotGeneral dot_S50000x128_S128x7_S50000x7_1_0_0_1_n_n none x w) (val_main_v95 (F := F) b)

theorem head_apply (x : FVec Ideal S50000x128 .f32) (w : FVec Ideal S128x7 .f32) (b : FVec Ideal S7 .f32) (i : S50000x7.Idx) :
    head x w b i = FloatOps.addf (F := Ideal) (∑ k : Fin 128, x (lidx_main_v93 i k) * w (ridx_main_v93 i k)) (b (idx_main_v94 (idx_main_v95 i))) := by
  show FloatOps.addf (F := Ideal) (Host.dotGeneral dot_S50000x128_S128x7_S50000x7_1_0_0_1_n_n none x w i) (val_main_v95 (F := Ideal) b i) = _
  rw [val_main_v95_apply, val_main_v94_apply]
  refine congrArg (fun z => FloatOps.addf (F := Ideal) z (b (idx_main_v94 (idx_main_v95 i)))) ?_
  simp only [Host.dotGeneral]
  rw [Ideal.dotGeneral_apply, ← Equiv.sum_comp (ValueIdx.contrEquiv1 dot_S50000x128_S128x7_S50000x7_1_0_0_1_n_n 128 rfl rfl).symm]
  refine Finset.sum_congr rfl fun k _ => ?_
  have hk := ValueIdx.contrEquiv1_symm_val dot_S50000x128_S128x7_S50000x7_1_0_0_1_n_n 128 rfl rfl k
  have el : dot_S50000x128_S128x7_S50000x7_1_0_0_1_n_n.lhsIdx i ((ValueIdx.contrEquiv1 dot_S50000x128_S128x7_S50000x7_1_0_0_1_n_n 128 rfl rfl).symm k) = lidx_main_v93 i k := funext fun a => Fin.ext (by
    match a with
    | ⟨0, _⟩ => exact lhs_main_v93_0 _ _
    | ⟨1, _⟩ => exact (lhs_main_v93_1 _ _).trans hk)
  have er : dot_S50000x128_S128x7_S50000x7_1_0_0_1_n_n.rhsIdx i ((ValueIdx.contrEquiv1 dot_S50000x128_S128x7_S50000x7_1_0_0_1_n_n 128 rfl rfl).symm k) = ridx_main_v93 i k := funext fun a => Fin.ext (by
    match a with
    | ⟨0, _⟩ => exact (rhs_main_v93_0 _ _).trans hk
    | ⟨1, _⟩ => exact rhs_main_v93_1 _ _)
  rw [el, er]

theorem stage_v96 (x0 : FVec F S50000x512 .f32) (x1 : IArr F S2x800000) (x2 : FVec F S512x256 .f32) (x3 : FVec F S256 .f32) (x4 : FVec F S256x128 .f32) (x5 : FVec F S128 .f32) (x6 : FVec F S128x7 .f32) (x7 : FVec F S7 .f32) :
    val_main_v96 (F := F) x0 x1 x2 x3 x4 x5 x6 x7 = head (val_main_v92 (F := F) x0 x1 x2 x3 x4 x5) x6 x7 := rfl

/-! ## Neighbourhood aggregation: gather the source rows, scale by the edge weight, sum into the destination rows -/

/-- An endpoint list made fit for a gather: a negative entry is moved up by the node count (the host's own
    normalisation of indices), and the list is given a trailing unit axis. -/
def wrapIdx (s : IArr F S850000) : IArr F S850000x1 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- For every node d, the sum over the edges e with destination d of  norm[e] · h[source e, ·] : a scatter-add of the
    gathered, scaled rows into a zero array (256 features). -/
def agg256 (h : FVec F S50000x256 .f32) (src dst : IArr F S850000) (norm : FVec F S850000 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 dst)
    (mulf (Host.gather gather_S50000x256_S850000x1_S850000x256_1_0_n_n_0_1_1256 h (wrapIdx src))
      (broadcastInDim S850000x256 ![0, 1] bcast_S850000x1_S850000x256_0_1 (broadcastInDim S850000x1 ![0] bcast_S850000_S850000x1_0 norm)))

/-- The same over 128 features. -/
def agg128 (h : FVec F S50000x128 .f32) (src dst : IArr F S850000) (norm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h (wrapIdx src))
      (broadcastInDim S850000x128 ![0, 1] bcast_S850000x1_S850000x128_0_1 (broadcastInDim S850000x1 ![0] bcast_S850000_S850000x1_0 norm)))

/-- The reference's first aggregation is this function of its first dense layer, its endpoint lists and its edge weights. -/
theorem stage_v43 (x0 : FVec F S50000x512 .f32) (x1 : IArr F S2x800000) (x2 : FVec F S512x256 .f32) :
    val_main_v43 (F := F) x0 x1 x2 = agg256 (val_main_v7 (F := F) x0 x2) (val_main_v3 (F := F) x1) (val_main_v6 (F := F) x1) (val_main_v30 (F := F) x1) := rfl

/-- The reference's second aggregation likewise, over the edge weights it computes a second time. -/
theorem stage_v84 (x0 : FVec F S50000x512 .f32) (x1 : IArr F S2x800000) (x2 : FVec F S512x256 .f32) (x3 : FVec F S256 .f32) (x4 : FVec F S256x128 .f32) :
    val_main_v84 (F := F) x0 x1 x2 x3 x4 = agg128 (val_main_v48 (F := F) x0 x1 x2 x3 x4) (val_main_v3 (F := F) x1) (val_main_v6 (F := F) x1) (val_main_v71 (F := F) x1) := rfl

/-! ## The edge weights are computed twice by the reference, once per layer: one function -/

theorem stage_v71 (x1 : IArr F S2x800000) : val_main_v71 (F := F) x1 = val_main_v30 (F := F) x1 := rfl

end Cert.RefOps

end
-- ==== Proof.HostStretches.lean ====
/-
  The host stretches of the kernel's program, read as values: what each stretch leaves in the buffers the regions and
  the later stretches read, as a function of what it found, for any float family and any contents at the stretch's
  start.

  * the first three stretches build, from the edge list, the endpoint lists with the self loops appended (source and
    destination), the degree of every node (a scatter-add of ones), its inverse square root where the degree is
    positive (zero elsewhere), and the edge weight  dinv[source] · dinv[destination];
  * the stretch after each dense region gathers the dense rows at the sources, scales them by the edge weights and
    sums them into the destination rows.

  Each is the reference's stage of the same name over the same operands (the two programs spell these operations
  alike), and a buffer a stretch does not write keeps its contents.
-/
import proofs.«135966_j55207509623327_1_alg».proof.Proof.Gen.KernelIdeal.Launch
import proofs.«135966_j55207509623327_1_alg».proof.Proof.RefOps
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.PRead (val_main_v3 val_main_v6 val_main_v30)

variable {F : FTy → Type} [FloatOps F]
variable (W : Valuation τ sig (Elt F))

/-- A buffer no operation of a stretch writes keeps its contents: the stretch's written buffers listed, each differing
    from the buffer in hand by its number. -/
macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the stretches compute -/

/-- The source endpoints: the edge list's first row, then every node once. -/
theorem src_eq : StableHlo.after (hostOps0 (F := F)) W (Proc.devRef .tc main_v3) = val_main_v3 (F := F) (W (Proc.devRef .tc main_arg1)) := by
  after_results_simp
  rfl

/-- The destination endpoints: the edge list's second row, then every node once. -/
theorem dst_eq : StableHlo.after (hostOps0 (F := F)) W (Proc.devRef .tc main_v6) = val_main_v6 (F := F) (W (Proc.devRef .tc main_arg1)) := by
  after_results_simp
  rfl

/-- The edge weights after the first three stretches:  dinv[source] · dinv[destination]. -/
theorem norm_eq : StableHlo.after (hostOps0_2 (F := F)) (StableHlo.after (hostOps0_1 (F := F)) (StableHlo.after (hostOps0 (F := F)) W)) (Proc.devRef .tc main_v29)
    = val_main_v30 (F := F) (W (Proc.devRef .tc main_arg1)) := by
  after_results_simp
  rfl

/-- The first aggregation, of whatever the stretch finds in the dense rows, the endpoint lists and the edge weights. -/
theorem agg1_eq : StableHlo.after (hostOps1 (F := F)) W (Proc.devRef .tc main_v43)
    = RefOps.agg256 (F := F) (W (Proc.devRef .tc main_v30)) (W (Proc.devRef .tc main_v3)) (W (Proc.devRef .tc main_v6)) (W (Proc.devRef .tc main_v29)) := by
  after_results_simp
  rfl

/-- The second aggregation. -/
theorem agg2_eq : StableHlo.after (hostOps3 (F := F)) W (Proc.devRef .tc main_v58)
    = RefOps.agg128 (F := F) (W (Proc.devRef .tc main_v45)) (W (Proc.devRef .tc main_v3)) (W (Proc.devRef .tc main_v6)) (W (Proc.devRef .tc main_v29)) := by
  after_results_simp
  rfl

/-! ## What the stretches leave alone -/

theorem hostOps0_keeps_arg0 : StableHlo.after (hostOps0 (F := F)) W (Proc.devRef .tc main_arg0) = W (Proc.devRef .tc main_arg0) := by host_keeps hostOps0
theorem hostOps0_keeps_arg2 : StableHlo.after (hostOps0 (F := F)) W (Proc.devRef .tc main_arg2) = W (Proc.devRef .tc main_arg2) := by host_keeps hostOps0
theorem hostOps0_keeps_arg3 : StableHlo.after (hostOps0 (F := F)) W (Proc.devRef .tc main_arg3) = W (Proc.devRef .tc main_arg3) := by host_keeps hostOps0
theorem hostOps0_keeps_arg4 : StableHlo.after (hostOps0 (F := F)) W (Proc.devRef .tc main_arg4) = W (Proc.devRef .tc main_arg4) := by host_keeps hostOps0
theorem hostOps0_keeps_arg5 : StableHlo.after (hostOps0 (F := F)) W (Proc.devRef .tc main_arg5) = W (Proc.devRef .tc main_arg5) := by host_keeps hostOps0
theorem hostOps0_keeps_arg6 : StableHlo.after (hostOps0 (F := F)) W (Proc.devRef .tc main_arg6) = W (Proc.devRef .tc main_arg6) := by host_keeps hostOps0
theorem hostOps0_keeps_arg7 : StableHlo.after (hostOps0 (F := F)) W (Proc.devRef .tc main_arg7) = W (Proc.devRef .tc main_arg7) := by host_keeps hostOps0

theorem hostOps0_1_keeps_arg0 : StableHlo.after (hostOps0_1 (F := F)) W (Proc.devRef .tc main_arg0) = W (Proc.devRef .tc main_arg0) := by host_keeps hostOps0_1
theorem hostOps0_1_keeps_arg2 : StableHlo.after (hostOps0_1 (F := F)) W (Proc.devRef .tc main_arg2) = W (Proc.devRef .tc main_arg2) := by host_keeps hostOps0_1
theorem hostOps0_1_keeps_arg3 : StableHlo.after (hostOps0_1 (F := F)) W (Proc.devRef .tc main_arg3) = W (Proc.devRef .tc main_arg3) := by host_keeps hostOps0_1
theorem hostOps0_1_keeps_arg4 : StableHlo.after (hostOps0_1 (F := F)) W (Proc.devRef .tc main_arg4) = W (Proc.devRef .tc main_arg4) := by host_keeps hostOps0_1
theorem hostOps0_1_keeps_arg5 : StableHlo.after (hostOps0_1 (F := F)) W (Proc.devRef .tc main_arg5) = W (Proc.devRef .tc main_arg5) := by host_keeps hostOps0_1
theorem hostOps0_1_keeps_arg6 : StableHlo.after (hostOps0_1 (F := F)) W (Proc.devRef .tc main_arg6) = W (Proc.devRef .tc main_arg6) := by host_keeps hostOps0_1
theorem hostOps0_1_keeps_arg7 : StableHlo.after (hostOps0_1 (F := F)) W (Proc.devRef .tc main_arg7) = W (Proc.devRef .tc main_arg7) := by host_keeps hostOps0_1
theorem hostOps0_1_keeps_v3 : StableHlo.after (hostOps0_1 (F := F)) W (Proc.devRef .tc main_v3) = W (Proc.devRef .tc main_v3) := by host_keeps hostOps0_1
theorem hostOps0_1_keeps_v6 : StableHlo.after (hostOps0_1 (F := F)) W (Proc.devRef .tc main_v6) = W (Proc.devRef .tc main_v6) := by host_keeps hostOps0_1

theorem hostOps0_2_keeps_arg0 : StableHlo.after (hostOps0_2 (F := F)) W (Proc.devRef .tc main_arg0) = W (Proc.devRef .tc main_arg0) := by host_keeps hostOps0_2
theorem hostOps0_2_keeps_arg2 : StableHlo.after (hostOps0_2 (F := F)) W (Proc.devRef .tc main_arg2) = W (Proc.devRef .tc main_arg2) := by host_keeps hostOps0_2
theorem hostOps0_2_keeps_arg3 : StableHlo.after (hostOps0_2 (F := F)) W (Proc.devRef .tc main_arg3) = W (Proc.devRef .tc main_arg3) := by host_keeps hostOps0_2
theorem hostOps0_2_keeps_arg4 : StableHlo.after (hostOps0_2 (F := F)) W (Proc.devRef .tc main_arg4) = W (Proc.devRef .tc main_arg4) := by host_keeps hostOps0_2
theorem hostOps0_2_keeps_arg5 : StableHlo.after (hostOps0_2 (F := F)) W (Proc.devRef .tc main_arg5) = W (Proc.devRef .tc main_arg5) := by host_keeps hostOps0_2
theorem hostOps0_2_keeps_arg6 : StableHlo.after (hostOps0_2 (F := F)) W (Proc.devRef .tc main_arg6) = W (Proc.devRef .tc main_arg6) := by host_keeps hostOps0_2
theorem hostOps0_2_keeps_arg7 : StableHlo.after (hostOps0_2 (F := F)) W (Proc.devRef .tc main_arg7) = W (Proc.devRef .tc main_arg7) := by host_keeps hostOps0_2
theorem hostOps0_2_keeps_v3 : StableHlo.after (hostOps0_2 (F := F)) W (Proc.devRef .tc main_v3) = W (Proc.devRef .tc main_v3) := by host_keeps hostOps0_2
theorem hostOps0_2_keeps_v6 : StableHlo.after (hostOps0_2 (F := F)) W (Proc.devRef .tc main_v6) = W (Proc.devRef .tc main_v6) := by host_keeps hostOps0_2

theorem hostOps1_keeps_arg3 : StableHlo.after (hostOps1 (F := F)) W (Proc.devRef .tc main_arg3) = W (Proc.devRef .tc main_arg3) := by host_keeps hostOps1
theorem hostOps1_keeps_arg4 : StableHlo.after (hostOps1 (F := F)) W (Proc.devRef .tc main_arg4) = W (Proc.devRef .tc main_arg4) := by host_keeps hostOps1
theorem hostOps1_keeps_arg5 : StableHlo.after (hostOps1 (F := F)) W (Proc.devRef .tc main_arg5) = W (Proc.devRef .tc main_arg5) := by host_keeps hostOps1
theorem hostOps1_keeps_arg6 : StableHlo.after (hostOps1 (F := F)) W (Proc.devRef .tc main_arg6) = W (Proc.devRef .tc main_arg6) := by host_keeps hostOps1
theorem hostOps1_keeps_arg7 : StableHlo.after (hostOps1 (F := F)) W (Proc.devRef .tc main_arg7) = W (Proc.devRef .tc main_arg7) := by host_keeps hostOps1
theorem hostOps1_keeps_v3 : StableHlo.after (hostOps1 (F := F)) W (Proc.devRef .tc main_v3) = W (Proc.devRef .tc main_v3) := by host_keeps hostOps1
theorem hostOps1_keeps_v6 : StableHlo.after (hostOps1 (F := F)) W (Proc.devRef .tc main_v6) = W (Proc.devRef .tc main_v6) := by host_keeps hostOps1
theorem hostOps1_keeps_v29 : StableHlo.after (hostOps1 (F := F)) W (Proc.devRef .tc main_v29) = W (Proc.devRef .tc main_v29) := by host_keeps hostOps1

theorem hostOps3_keeps_arg5 : StableHlo.after (hostOps3 (F := F)) W (Proc.devRef .tc main_arg5) = W (Proc.devRef .tc main_arg5) := by host_keeps hostOps3
theorem hostOps3_keeps_arg6 : StableHlo.after (hostOps3 (F := F)) W (Proc.devRef .tc main_arg6) = W (Proc.devRef .tc main_arg6) := by host_keeps hostOps3
theorem hostOps3_keeps_arg7 : StableHlo.after (hostOps3 (F := F)) W (Proc.devRef .tc main_arg7) = W (Proc.devRef .tc main_arg7) := by host_keeps hostOps3

end Cert.KernelIdeal.HostStretches

end
-- ==== Proof.Region0.lean ====
/-
  The first dense region: 25 grid points, point t handling nodes 2000·t … 2000·t + 1999. The body multiplies the band
  of 2000 input rows by the whole [512, 256] weight array into a zero accumulator, so entry (n, j) of what it stores
  is the sum over the 512 input features k of x[n, k] · W[k, j]: the same sum the host's contraction of the whole
  arrays has at that entry (the rows of a product do not depend on how the rows are banded). Each point writes back
  one band, and the bands tile the array.
-/
import proofs.«135966_j55207509623327_1_alg».proof.Proof.Gen.KernelIdeal.Frame
import proofs.«135966_j55207509623327_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.PRead (idx_main_v44 idx_main_v45 idx_main_v85 idx_main_v86 idx_main_v94 idx_main_v95 lidx_main_v7 ridx_main_v7 lidx_main_v48 ridx_main_v48 lidx_main_v93 ridx_main_v93)

theorem hz2 : (![0, 0] : Fin 2 → Nat) = fun _ => 0 := funext fun a => by fin_cases a <;> rfl
theorem hz1 : (![0] : Fin 1 → Nat) = fun _ => 0 := funext fun a => by fin_cases a <;> rfl

/-! ## The block's contraction read at an index -/

theorem lhs_0 (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_1 (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
theorem rhs_0 (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs_1 (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Row (j 0) of the block of nodes, at contracted feature k. -/
abbrev lb (j : S2000x256.Idx) (k : Fin 512) : S2000x512.Idx := fun a => match a with
  | ⟨0, _⟩ => ⟨(j 0).val, (j 0).isLt⟩
  | ⟨1, _⟩ => ⟨k.val, k.isLt⟩
/-- Contracted feature k of the weights, at output column (j 1). -/
abbrev rb (j : S2000x256.Idx) (k : Fin 512) : S512x256.Idx := fun a => match a with
  | ⟨0, _⟩ => ⟨k.val, k.isLt⟩
  | ⟨1, _⟩ => ⟨(j 1).val, (j 1).isLt⟩

/-- The block product into the zero accumulator, read at an index: the sum over the 512 contracted features of the
    block's row times the weights' column (the narrowing of the operands to bf16 is the identity on extended reals). -/
theorem mm_apply (x0 : FVec Ideal S2000x512 .bf16) (x1 : FVec Ideal S512x256 .bf16) (j : S2000x256.Idx) :
    FloatOps.matmul (F := Ideal) dot_S2000x512_S512x256_S2000x256_1_0_0_1_n_n none x0 x1 (constant S2000x256 .f32 0x00000000#32) j
      = ∑ k : Fin 512, x0 (lb j k) * x1 (rb j k) := by
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lb j k := funext fun a => Fin.ext (by
    match a with
    | ⟨0, _⟩ => exact lhs_0 _ _
    | ⟨1, _⟩ => exact (lhs_1 _ _).trans hk)
  have er : dot_S2000x512_S512x256_S2000x256_1_0_0_1_n_n.rhsIdx j ((ValueIdx.contrEquiv1 dot_S2000x512_S512x256_S2000x256_1_0_0_1_n_n 512 rfl rfl).symm k) = rb j k := funext fun a => Fin.ext (by
    match a with
    | ⟨0, _⟩ => exact (rhs_0 _ _).trans hk
    | ⟨1, _⟩ => exact rhs_1 _ _)
  rw [el, er]

/-- The body's one stored value at an index of the output block. -/
theorem pay_apply (x0 : Vec Ideal S2000x512 .f32) (x1 : Vec Ideal S512x256 .f32) (j : S2000x256.Idx) :
    k0_pay1 x0 x1 j = ∑ k : Fin 512, x0 (lb j k) * x1 (rb j k) := by
  unfold k0_pay1
  show FloatOps.matmul (F := Ideal) dot_S2000x512_S512x256_S2000x256_1_0_0_1_n_n none (truncf .bf16 (x0 : FVec Ideal S2000x512 .f32) bitsLt_bf16_f32) (truncf .bf16 (x1 : FVec Ideal S512x256 .f32) bitsLt_bf16_f32) (constant S2000x256 .f32 0x00000000#32) j = _
  rw [mm_apply]
  rfl

/-- The index maps over the grid: point t's input and output blocks are the t-th band of 2000 nodes; the weights are
    one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every band of 2000 nodes is some point's output block. -/
theorem idx_onto : ∀ q0 : Fin 25, ∃ t : Fin cfg0.N, win0_2.index t = ![q0.val, 0] :=
  (by decide +kernel : ∀ q0 : Fin 25, ∃ t : Fin grid0.N, win0_2.index t = ![q0.val, 0])

variable (V : (c : Dev nD) → (b : Ref sig .tc) → Buf (Elt Ideal) ((c : Thread nD τ).loc b))

/-- What point t writes back is block t of the dense layer of the arrays the region finds. -/
theorem flushed_eq (c : Dev nD) (t : Fin cfg0.N) :
    (dat0 V c).flushed 2 t = ((cfg0.win 2).blk t).view.read (Elt Ideal) (RefOps.dense1 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S2000x512) hz2, View.ld_unit_zero (S := S512x256) hz2]
  funext j
  show k0_pay1 (iblk0 V c 0 t) (iblk0 V c 1 t) j = RefOps.dense1 (F := Ideal) (V c main_arg0) (V c main_arg2) (((cfg0.win 2).blk t).view.emb j)
  rw [pay_apply, RefOps.dense1_apply]
  obtain ⟨e0, e1, e2, e3, e4, e5⟩ := idx_facts t
  refine Finset.sum_congr rfl fun k _ => ?_
  have h0 : iblk0 V c 0 t (lb j k) = V c main_arg0 (lidx_main_v7 (((cfg0.win 2).blk t).view.emb j) k) := by
    show V c main_arg0 (((cfg0.win 0).blk t).view.emb (lb j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (rb j k) = V c main_arg2 (ridx_main_v7 (((cfg0.win 2).blk t).view.emb j) k) := by
    show V c main_arg2 (((cfg0.win 1).blk t).view.emb (rb j k)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-- An index of the array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 bands cover the 50000 nodes: node n is in band n / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE REGION'S ARRAY after its run: the dense layer of the arrays it found. -/
theorem final (c : Dev nD) : (dat0 V c).arrAt 2 cfg0.N = RefOps.dense1 (F := Ideal) (V c main_arg0) (V c main_arg2) :=
  (dat0 V c).arrAt_eq_of_cover 2 _ (fun t _ => flushed_eq V c t) cover

end Cert.KernelIdeal.Region0

end
-- ==== Proof.Region1.lean ====
/-
  The first activation region: 25 grid points, point t handling nodes 2000·t … 2000·t + 1999, all 256 hidden features.
  The body adds the bias row to every node's feature row and takes the maximum with zero; so whatever array of
  aggregated features the region finds, it leaves  max (x + b, 0)  of it, entry by entry. Each point writes back one
  band of that function, and the bands tile the array.
-/
import proofs.«135966_j55207509623327_1_alg».proof.Proof.Gen.KernelIdeal.Frame
import proofs.«135966_j55207509623327_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.PRead (idx_main_v44 idx_main_v45 idx_main_v85 idx_main_v86 idx_main_v94 idx_main_v95 lidx_main_v7 ridx_main_v7 lidx_main_v48 ridx_main_v48 lidx_main_v93 ridx_main_v93)

theorem hz2 : (![0, 0] : Fin 2 → Nat) = fun _ => 0 := funext fun a => by fin_cases a <;> rfl
theorem hz1 : (![0] : Fin 1 → Nat) = fun _ => 0 := funext fun a => by fin_cases a <;> rfl

/-- The feature coordinate of an index of a block, as an index of the bias row. -/
abbrev col (j : S2000x256.Idx) : S256.Idx := fun a => match a with
  | ⟨0, _⟩ => ⟨(j 1).val, (j 1).isLt⟩

/-- The body's one stored value at an index of the block: the loaded feature plus the bias of its column, through the
    activation. -/
theorem pay_apply (x0 : Vec Ideal S2000x256 .f32) (x1 : Vec Ideal S256 .f32) (j : S2000x256.Idx) :
    k1_pay1 x0 x1 j = FloatOps.maximumf (FloatOps.addf (x0 j) (x1 (col j))) (FloatOps.ofBits .f32 0x00000000#32) := by
  obtain ⟨p, q, rfl⟩ : ∃ (p : Fin 2000) (q : Fin 256), j = ix2 p q := ⟨j 0, j 1, eq_ix2 j⟩
  unfold k1_pay1
  show FloatOps.maximumf (F := Ideal) (FloatOps.addf (F := Ideal) (shapeCast S2000x256 (x0 : FVec Ideal S2000x256 .f32) shapeCasts_S2000x256_S2000x256 (ix2 p q)) (broadcastTo S2000x256 (shapeCast S1x256 (x1 : FVec Ideal S256 .f32) shapeCasts_S256_S1x256) broadcasts_S1x256_S2000x256 (ix2 p q))) (FloatOps.ofBits .f32 0x00000000#32) = _
  rw [shapeCast_self, broadcastTo_1b_ab_apply, shapeCast_a_1a_apply]
  refine congrArg (fun z => FloatOps.maximumf (F := Ideal) (FloatOps.addf (F := Ideal) (x0 (ix2 p q)) (x1 z)) (FloatOps.ofBits .f32 0x00000000#32)) (funext fun a => ?_)
  match a with
  | ⟨0, _⟩ => rfl

/-- The index maps over the grid: point t's input and output blocks are the t-th band of 2000 nodes, all feature
    columns; the bias row is one block. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Every band of 2000 nodes is some point's output block. -/
theorem idx_onto : ∀ q0 : Fin 25, ∃ t : Fin cfg1.N, win1_2.index t = ![q0.val, 0] :=
  (by decide +kernel : ∀ q0 : Fin 25, ∃ t : Fin grid1.N, win1_2.index t = ![q0.val, 0])

variable (V : (c : Dev nD) → (b : Ref sig .tc) → Buf (Elt Ideal) ((c : Thread nD τ).loc b))

/-- What point t writes back is block t of the whole-array function of the arrays the region finds. -/
theorem flushed_eq (c : Dev nD) (t : Fin cfg1.N) :
    (dat1 V c).flushed 2 t = ((cfg1.win 2).blk t).view.read (Elt Ideal) (RefOps.biasRelu (F := Ideal) (V c main_v43) (V c main_arg3)) := by
  show (cfg1.win 2).cut (grid1.coords t) ((dat1 V c).after 2 t) = _
  rw [after1_2]
  unfold out1_2
  rw [View.canon_unit_zero hz2]
  simp only [View.ld_unit_zero (S := S2000x256) hz2, View.ld_unit_zero (S := S256) hz1]
  funext j
  show k1_pay1 (iblk1 V c 0 t) (iblk1 V c 1 t) j = RefOps.biasRelu (F := Ideal) (V c main_v43) (V c main_arg3) (((cfg1.win 2).blk t).view.emb j)
  rw [pay_apply, RefOps.biasRelu_apply]
  obtain ⟨e0, e1, e2, e3, e4⟩ := idx_facts t
  have h0 : iblk1 V c 0 t j = V c main_v43 (((cfg1.win 2).blk t).view.emb j) := by
    show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  have h1 : iblk1 V c 1 t (col j) = V c main_arg3 (idx_main_v44 (idx_main_v45 (((cfg1.win 2).blk t).view.emb j))) := by
    show V c main_arg3 (((cfg1.win 1).blk t).view.emb (col j)) = _
    refine congrArg (V c main_arg3) (funext fun a => Fin.ext ?_)
    match a with
    | ⟨0, _⟩ => show win1_1.index t (0 : Fin 1) * 256 + 1 * (j 1).val = win1_2.index t (1 : Fin 2) * 256 + 1 * (j 1).val; omega
  rw [h0, h1]

/-- An index of the array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v44).slice (win1_2.rect t)).set ↔ _
  rw [View.set_slice_whole, Rect.mem_set_unit]
  exact Iff.rfl

/-- The 25 bands cover the 50000 nodes: node n is in band n / 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE REGION'S ARRAY after its run: the whole-array function of the arrays it found. -/
theorem final (c : Dev nD) : (dat1 V c).arrAt 2 cfg1.N = RefOps.biasRelu (F := Ideal) (V c main_v43) (V c main_arg3) :=
  (dat1 V c).arrAt_eq_of_cover 2 _ (fun t _ => flushed_eq V c t) cover

end Cert.KernelIdeal.Region1

end
-- ==== Proof.Region2.lean ====
/-
  The second dense region: 25 grid points, point t handling nodes 2000·t … 2000·t + 1999. The body multiplies the band
  of 2000 hidden rows by the whole [256, 128] weight array into a zero accumulator, so entry (n, j) of what it stores
  is the sum over the 256 hidden features k of h[n, k] · W[k, j]: the sum the host's contraction of the whole arrays
  has at that entry. Each point writes back one band, and the bands tile the array.
-/
import proofs.«135966_j55207509623327_1_alg».proof.Proof.Gen.KernelIdeal.Frame
import proofs.«135966_j55207509623327_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.PRead (idx_main_v44 idx_main_v45 idx_main_v85 idx_main_v86 idx_main_v94 idx_main_v95 lidx_main_v7 ridx_main_v7 lidx_main_v48 ridx_main_v48 lidx_main_v93 ridx_main_v93)

theorem hz2 : (![0, 0] : Fin 2 → Nat) = fun _ => 0 := funext fun a => by fin_cases a <;> rfl
theorem hz1 : (![0] : Fin 1 → Nat) = fun _ => 0 := funext fun a => by fin_cases a <;> rfl

/-! ## The block's contraction read at an index -/

theorem lhs_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Row (j 0) of the block of nodes, at contracted feature k. -/
abbrev lb (j : S2000x128.Idx) (k : Fin 256) : S2000x256.Idx := fun a => match a with
  | ⟨0, _⟩ => ⟨(j 0).val, (j 0).isLt⟩
  | ⟨1, _⟩ => ⟨k.val, k.isLt⟩
/-- Contracted feature k of the weights, at output column (j 1). -/
abbrev rb (j : S2000x128.Idx) (k : Fin 256) : S256x128.Idx := fun a => match a with
  | ⟨0, _⟩ => ⟨k.val, k.isLt⟩
  | ⟨1, _⟩ => ⟨(j 1).val, (j 1).isLt⟩

/-- The block product into the zero accumulator, read at an index: the sum over the 256 contracted features of the
    block's row times the weights' column (the narrowing of the operands to bf16 is the identity on extended reals). -/
theorem mm_apply (x0 : FVec Ideal S2000x256 .bf16) (x1 : FVec Ideal S256x128 .bf16) (j : S2000x128.Idx) :
    FloatOps.matmul (F := Ideal) dot_S2000x256_S256x128_S2000x128_1_0_0_1_n_n none x0 x1 (constant S2000x128 .f32 0x00000000#32) j
      = ∑ k : Fin 256, x0 (lb j k) * x1 (rb j k) := by
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lb j k := funext fun a => Fin.ext (by
    match a with
    | ⟨0, _⟩ => exact lhs_0 _ _
    | ⟨1, _⟩ => exact (lhs_1 _ _).trans hk)
  have er : dot_S2000x256_S256x128_S2000x128_1_0_0_1_n_n.rhsIdx j ((ValueIdx.contrEquiv1 dot_S2000x256_S256x128_S2000x128_1_0_0_1_n_n 256 rfl rfl).symm k) = rb j k := funext fun a => Fin.ext (by
    match a with
    | ⟨0, _⟩ => exact (rhs_0 _ _).trans hk
    | ⟨1, _⟩ => exact rhs_1 _ _)
  rw [el, er]

/-- The body's one stored value at an index of the output block. -/
theorem pay_apply (x0 : Vec Ideal S2000x256 .f32) (x1 : Vec Ideal S256x128 .f32) (j : S2000x128.Idx) :
    k2_pay1 x0 x1 j = ∑ k : Fin 256, x0 (lb j k) * x1 (rb j k) := by
  unfold k2_pay1
  show FloatOps.matmul (F := Ideal) dot_S2000x256_S256x128_S2000x128_1_0_0_1_n_n none (truncf .bf16 (shapeCast S2000x256 (x0 : FVec Ideal S2000x256 .f32) shapeCasts_S2000x256_S2000x256) bitsLt_bf16_f32) (truncf .bf16 (x1 : FVec Ideal S256x128 .f32) bitsLt_bf16_f32) (constant S2000x128 .f32 0x00000000#32) j = _
  rw [mm_apply, shapeCast_self]
  rfl

/-- The index maps over the grid: point t's input and output blocks are the t-th band of 2000 nodes; the weights are
    one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every band of 2000 nodes is some point's output block. -/
theorem idx_onto : ∀ q0 : Fin 25, ∃ t : Fin cfg2.N, win2_2.index t = ![q0.val, 0] :=
  (by decide +kernel : ∀ q0 : Fin 25, ∃ t : Fin grid2.N, win2_2.index t = ![q0.val, 0])

variable (V : (c : Dev nD) → (b : Ref sig .tc) → Buf (Elt Ideal) ((c : Thread nD τ).loc b))

/-- What point t writes back is block t of the dense layer of the arrays the region finds. -/
theorem flushed_eq (c : Dev nD) (t : Fin cfg2.N) :
    (dat2 V c).flushed 2 t = ((cfg2.win 2).blk t).view.read (Elt Ideal) (RefOps.dense2 (F := Ideal) (V c main_v44) (V c main_arg4)) := by
  show (cfg2.win 2).cut (grid2.coords t) ((dat2 V c).after 2 t) = _
  rw [after2_2]
  unfold out2_2
  rw [View.canon_unit_zero hz2]
  simp only [View.ld_unit_zero (S := S2000x256) hz2, View.ld_unit_zero (S := S256x128) hz2]
  funext j
  show k2_pay1 (iblk2 V c 0 t) (iblk2 V c 1 t) j = RefOps.dense2 (F := Ideal) (V c main_v44) (V c main_arg4) (((cfg2.win 2).blk t).view.emb j)
  rw [pay_apply, RefOps.dense2_apply]
  obtain ⟨e0, e1, e2, e3, e4, e5⟩ := idx_facts t
  refine Finset.sum_congr rfl fun k _ => ?_
  have h0 : iblk2 V c 0 t (lb j k) = V c main_v44 (lidx_main_v48 (((cfg2.win 2).blk t).view.emb j) k) := by
    show V c main_v44 (((cfg2.win 0).blk t).view.emb (lb j k)) = _
    refine congrArg (V c main_v44) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have h1 : iblk2 V c 1 t (rb j k) = V c main_arg4 (ridx_main_v48 (((cfg2.win 2).blk t).view.emb j) k) := by
    show V c main_arg4 (((cfg2.win 1).blk t).view.emb (rb j k)) = _
    refine congrArg (V c main_arg4) (funext fun a => Fin.ext ?_)
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  rw [h0, h1]

/-- An index of the array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v45).slice (win2_2.rect t)).set ↔ _
  rw [View.set_slice_whole, Rect.mem_set_unit]
  exact Iff.rfl

/-- The 25 bands cover the 50000 nodes: node n is in band n / 2000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- THE REGION'S ARRAY after its run: the dense layer of the arrays it found. -/
theorem final (c : Dev nD) : (dat2 V c).arrAt 2 cfg2.N = RefOps.dense2 (F := Ideal) (V c main_v44) (V c main_arg4) :=
  (dat2 V c).arrAt_eq_of_cover 2 _ (fun t _ => flushed_eq V c t) cover

end Cert.KernelIdeal.Region2

end
-- ==== Proof.Region3.lean ====
/-
  The second activation region: 25 grid points, point t handling nodes 2000·t … 2000·t + 1999, all 128 hidden features.
  The body adds the bias row to every node's feature row and keeps the sum where it is at least zero, 0.01 times
  the sum elsewhere; so whatever array of aggregated features the region finds, it leaves the leaky relu of x + b,
  entry by entry. Each point writes back one band of that function, and the bands tile the array.
-/
import proofs.«135966_j55207509623327_1_alg».proof.Proof.Gen.KernelIdeal.Frame
import proofs.«135966_j55207509623327_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.PRead (idx_main_v44 idx_main_v45 idx_main_v85 idx_main_v86 idx_main_v94 idx_main_v95 lidx_main_v7 ridx_main_v7 lidx_main_v48 ridx_main_v48 lidx_main_v93 ridx_main_v93)

theorem hz2 : (![0, 0] : Fin 2 → Nat) = fun _ => 0 := funext fun a => by fin_cases a <;> rfl
theorem hz1 : (![0] : Fin 1 → Nat) = fun _ => 0 := funext fun a => by fin_cases a <;> rfl

/-- The feature coordinate of an index of a block, as an index of the bias row. -/
abbrev col (j : S2000x128.Idx) : S128.Idx := fun a => match a with
  | ⟨0, _⟩ => ⟨(j 1).val, (j 1).isLt⟩

/-- The body's one stored value at an index of the block: the loaded feature plus the bias of its column, through the
    activation. -/
theorem pay_apply (x0 : Vec Ideal S2000x128 .f32) (x1 : Vec Ideal S128 .f32) (j : S2000x128.Idx) :
    k3_pay1 x0 x1 j = Scalar.select (FloatOps.cmpf (F := Ideal) .oge (FloatOps.addf (F := Ideal) (x0 j) (x1 (col j))) (FloatOps.ofBits .f32 0x00000000#32)) (FloatOps.addf (F := Ideal) (x0 j) (x1 (col j))) (FloatOps.mulf (F := Ideal) (FloatOps.ofBits .f32 0x3C23D70A#32) (FloatOps.addf (F := Ideal) (x0 j) (x1 (col j)))) := by
  obtain ⟨p, q, rfl⟩ : ∃ (p : Fin 2000) (q : Fin 128), j = ix2 p q := ⟨j 0, j 1, eq_ix2 j⟩
  unfold k3_pay1
  show Scalar.select (FloatOps.cmpf (F := Ideal) .oge (FloatOps.addf (F := Ideal) (shapeCast S2000x128 (x0 : FVec Ideal S2000x128 .f32) shapeCasts_S2000x128_S2000x128 (ix2 p q)) (broadcastTo S2000x128 (shapeCast S1x128 (x1 : FVec Ideal S128 .f32) shapeCasts_S128_S1x128) broadcasts_S1x128_S2000x128 (ix2 p q))) (FloatOps.ofBits .f32 0x00000000#32)) (FloatOps.addf (F := Ideal) (shapeCast S2000x128 (x0 : FVec Ideal S2000x128 .f32) shapeCasts_S2000x128_S2000x128 (ix2 p q)) (broadcastTo S2000x128 (shapeCast S1x128 (x1 : FVec Ideal S128 .f32) shapeCasts_S128_S1x128) broadcasts_S1x128_S2000x128 (ix2 p q))) (FloatOps.mulf (F := Ideal) (FloatOps.ofBits .f32 0x3C23D70A#32) (FloatOps.addf (F := Ideal) (shapeCast S2000x128 (x0 : FVec Ideal S2000x128 .f32) shapeCasts_S2000x128_S2000x128 (ix2 p q)) (broadcastTo S2000x128 (shapeCast S1x128 (x1 : FVec Ideal S128 .f32) shapeCasts_S128_S1x128) broadcasts_S1x128_S2000x128 (ix2 p q)))) = _
  rw [shapeCast_self, broadcastTo_1b_ab_apply, shapeCast_a_1a_apply]
  refine congrArg (fun z => Scalar.select (FloatOps.cmpf (F := Ideal) .oge (FloatOps.addf (F := Ideal) (x0 (ix2 p q)) (x1 z)) (FloatOps.ofBits .f32 0x00000000#32)) (FloatOps.addf (F := Ideal) (x0 (ix2 p q)) (x1 z)) (FloatOps.mulf (F := Ideal) (FloatOps.ofBits .f32 0x3C23D70A#32) (FloatOps.addf (F := Ideal) (x0 (ix2 p q)) (x1 z)))) (funext fun a => ?_)
  match a with
  | ⟨0, _⟩ => rfl

/-- The index maps over the grid: point t's input and output blocks are the t-th band of 2000 nodes, all feature
    columns; the bias row is one block. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Every band of 2000 nodes is some point's output block. -/
theorem idx_onto : ∀ q0 : Fin 25, ∃ t : Fin cfg3.N, win3_2.index t = ![q0.val, 0] :=
  (by decide +kernel : ∀ q0 : Fin 25, ∃ t : Fin grid3.N, win3_2.index t = ![q0.val, 0])

variable (V : (c : Dev nD) → (b : Ref sig .tc) → Buf (Elt Ideal) ((c : Thread nD τ).loc b))

/-- What point t writes back is block t of the whole-array function of the arrays the region finds. -/
theorem flushed_eq (c : Dev nD) (t : Fin cfg3.N) :
    (dat3 V c).flushed 2 t = ((cfg3.win 2).blk t).view.read (Elt Ideal) (RefOps.biasLeaky (F := Ideal) (V c main_v58) (V c main_arg5)) := by
  show (cfg3.win 2).cut (grid3.coords t) ((dat3 V c).after 2 t) = _
  rw [after3_2]
  unfold out3_2
  rw [View.canon_unit_zero hz2]
  simp only [View.ld_unit_zero (S := S2000x128) hz2, View.ld_unit_zero (S := S128) hz1]
  funext j
  show k3_pay1 (iblk3 V c 0 t) (iblk3 V c 1 t) j = RefOps.biasLeaky (F := Ideal) (V c main_v58) (V c main_arg5) (((cfg3.win 2).blk t).view.emb j)
  rw [pay_apply, RefOps.biasLeaky_apply]
  obtain ⟨e0, e1, e2, e3, e4⟩ := idx_facts t
  have h0 : iblk3 V c 0 t j = V c main_v58 (((cfg3.win 2).blk t).view.emb j) := by
    show V c main_v58 (((cfg3.win 0).blk t).view.emb j) = V c main_v58 (((cfg3.win 2).blk t).view.emb j)
    refine congrArg (V c main_v58) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : iblk3 V c 1 t (col j) = V c main_arg5 (idx_main_v85 (idx_main_v86 (((cfg3.win 2).blk t).view.emb j))) := by
    show V c main_arg5 (((cfg3.win 1).blk t).view.emb (col j)) = _
    refine congrArg (V c main_arg5) (funext fun a => Fin.ext ?_)
    match a with
    | ⟨0, _⟩ => show win3_1.index t (0 : Fin 1) * 128 + 1 * (j 1).val = win3_2.index t (1 : Fin 2) * 128 + 1 * (j 1).val; omega
  rw [h0, h1]

/-- An index of the array is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v59).slice (win3_2.rect t)).set ↔ _
  rw [View.set_slice_whole, Rect.mem_set_unit]
  exact Iff.rfl

/-- The 25 bands cover the 50000 nodes: node n is in band n / 2000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- THE REGION'S ARRAY after its run: the whole-array function of the arrays it found. -/
theorem final (c : Dev nD) : (dat3 V c).arrAt 2 cfg3.N = RefOps.biasLeaky (F := Ideal) (V c main_v58) (V c main_arg5) :=
  (dat3 V c).arrAt_eq_of_cover 2 _ (fun t _ => flushed_eq V c t) cover

end Cert.KernelIdeal.Region3

end
-- ==== Proof.Region4.lean ====
/-
  The head: 25 grid points, point t handling nodes 2000·t … 2000·t + 1999. The body multiplies the band of 2000
  hidden rows by the whole [128, 7] weight array into a zero accumulator and adds the bias row to every node's
  row, so entry (n, j) of what it stores is (the sum over the 128 hidden features k of h[n, k] · W[k, j]) + b[j]:
  what the host's contraction of the whole arrays plus the broadcast bias has at that entry. Each point writes back
  one band, and the bands tile the array.
-/
import proofs.«135966_j55207509623327_1_alg».proof.Proof.Gen.KernelIdeal.Frame
import proofs.«135966_j55207509623327_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.PRead (idx_main_v44 idx_main_v45 idx_main_v85 idx_main_v86 idx_main_v94 idx_main_v95 lidx_main_v7 ridx_main_v7 lidx_main_v48 ridx_main_v48 lidx_main_v93 ridx_main_v93)

theorem hz2 : (![0, 0] : Fin 2 → Nat) = fun _ => 0 := funext fun a => by fin_cases a <;> rfl
theorem hz1 : (![0] : Fin 1 → Nat) = fun _ => 0 := funext fun a => by fin_cases a <;> rfl

/-! ## The block's contraction read at an index -/

theorem lhs_0 (j : S2000x7.Idx) (q : dot_S2000x128_S128x7_S2000x7_1_0_0_1_n_n.contr.Idx) :
    (dot_S2000x128_S128x7_S2000x7_1_0_0_1_n_n.lhsIdx j q 0).val = (j 0).val := by
  unfold DotDims.lhsIdx
  rw [dif_neg (show ¬(0 : Fin S2000x128.rank) ∈ dot_S2000x128_S128x7_S2000x7_1_0_0_1_n_n.lhsBatch by decide), dif_pos (show (0 : Fin S2000x128.rank) ∈ dot_S2000x128_S128x7_S2000x7_1_0_0_1_n_n.lhsNonContracting by decide)]
  rfl
theorem lhs_1 (j : S2000x7.Idx) (q : dot_S2000x128_S128x7_S2000x7_1_0_0_1_n_n.contr.Idx) :
    (dot_S2000x128_S128x7_S2000x7_1_0_0_1_n_n.lhsIdx j q 1).val = (q ⟨0, by decide⟩).val :=
  dot_S2000x128_S128x7_S2000x7_1_0_0_1_n_n.lhsIdx_val_of_single rfl j q
theorem rhs_0 (j : S2000x7.Idx) (q : dot_S2000x128_S128x7_S2000x7_1_0_0_1_n_n.contr.Idx) :
    (dot_S2000x128_S128x7_S2000x7_1_0_0_1_n_n.rhsIdx j q 0).val = (q ⟨0, by decide⟩).val :=
  dot_S2000x128_S128x7_S2000x7_1_0_0_1_n_n.rhsIdx_val_of_single rfl j q
theorem rhs_1 (j : S2000x7.Idx) (q : dot_S2000x128_S128x7_S2000x7_1_0_0_1_n_n.contr.Idx) :
    (dot_S2000x128_S128x7_S2000x7_1_0_0_1_n_n.rhsIdx j q 1).val = (j 1).val := by
  unfold DotDims.rhsIdx
  rw [dif_neg (show ¬(1 : Fin S128x7.rank) ∈ dot_S2000x128_S128x7_S2000x7_1_0_0_1_n_n.rhsBatch by decide), dif_pos (show (1 : Fin S128x7.rank) ∈ dot_S2000x128_S128x7_S2000x7_1_0_0_1_n_n.rhsNonContracting by decide)]
  rfl

/-- Row (j 0) of the block of nodes, at contracted feature k. -/
abbrev lb (j : S2000x7.Idx) (k : Fin 128) : S2000x128.Idx := fun a => match a with
  | ⟨0, _⟩ => ⟨(j 0).val, (j 0).isLt⟩
  | ⟨1, _⟩ => ⟨k.val, k.isLt⟩
/-- Contracted feature k of the weights, at output column (j 1). -/
abbrev rb (j : S2000x7.Idx) (k : Fin 128) : S128x7.Idx := fun a => match a with
  | ⟨0, _⟩ => ⟨k.val, k.isLt⟩
  | ⟨1, _⟩ => ⟨(j 1).val, (j 1).isLt⟩
/-- The output column of an index of a block, as an index of the bias row. -/
abbrev col (j : S2000x7.Idx) : S7.Idx := fun a => match a with
  | ⟨0, _⟩ => ⟨(j 1).val, (j 1).isLt⟩

/-- The block product into the zero accumulator, read at an index: the sum over the 128 contracted features of the
    block's row times the weights' column (the narrowing of the operands to bf16 is the identity on extended reals). -/
theorem mm_apply (x0 : FVec Ideal S2000x128 .bf16) (x1 : FVec Ideal S128x7 .bf16) (j : S2000x7.Idx) :
    FloatOps.matmul (F := Ideal) dot_S2000x128_S128x7_S2000x7_1_0_0_1_n_n none x0 x1 (constant S2000x7 .f32 0x00000000#32) j
      = ∑ k : Fin 128, x0 (lb j k) * x1 (rb j k) := by
  rw [Ideal.matmul_constant_zero_apply, ← Equiv.sum_comp (ValueIdx.contrEquiv1 dot_S2000x128_S128x7_S2000x7_1_0_0_1_n_n 128 rfl rfl).symm]
  refine Finset.sum_congr rfl fun k _ => ?_
  have hk := ValueIdx.contrEquiv1_symm_val dot_S2000x128_S128x7_S2000x7_1_0_0_1_n_n 128 rfl rfl k
  have el : dot_S2000x128_S128x7_S2000x7_1_0_0_1_n_n.lhsIdx j ((ValueIdx.contrEquiv1 dot_S2000x128_S128x7_S2000x7_1_0_0_1_n_n 128 rfl rfl).symm k) = lb j k := funext fun a => Fin.ext (by
    match a with
    | ⟨0, _⟩ => exact lhs_0 _ _
    | ⟨1, _⟩ => exact (lhs_1 _ _).trans hk)
  have er : dot_S2000x128_S128x7_S2000x7_1_0_0_1_n_n.rhsIdx j ((ValueIdx.contrEquiv1 dot_S2000x128_S128x7_S2000x7_1_0_0_1_n_n 128 rfl rfl).symm k) = rb j k := funext fun a => Fin.ext (by
    match a with
    | ⟨0, _⟩ => exact (rhs_0 _ _).trans hk
    | ⟨1, _⟩ => exact rhs_1 _ _)
  rw [el, er]

/-- The body's one stored value at an index of the output block. -/
theorem pay_apply (x0 : Vec Ideal S2000x128 .f32) (x1 : Vec Ideal S128x7 .f32) (x2 : Vec Ideal S7 .f32) (j : S2000x7.Idx) :
    k4_pay1 x0 x1 x2 j = FloatOps.addf (F := Ideal) (∑ k : Fin 128, x0 (lb j k) * x1 (rb j k)) (x2 (col j)) := by
  unfold k4_pay1
  show FloatOps.addf (F := Ideal) (FloatOps.matmul (F := Ideal) dot_S2000x128_S128x7_S2000x7_1_0_0_1_n_n none (truncf .bf16 (shapeCast S2000x128 (x0 : FVec Ideal S2000x128 .f32) shapeCasts_S2000x128_S2000x128) bitsLt_bf16_f32) (truncf .bf16 (x1 : FVec Ideal S128x7 .f32) bitsLt_bf16_f32) (constant S2000x7 .f32 0x00000000#32) j) (broadcastTo S2000x7 (shapeCast S1x7 (x2 : FVec Ideal S7 .f32) shapeCasts_S7_S1x7) broadcasts_S1x7_S2000x7 j) = _
  rw [mm_apply, shapeCast_self]
  obtain ⟨p, q, rfl⟩ : ∃ (p : Fin 2000) (q : Fin 7), j = ix2 p q := ⟨j 0, j 1, eq_ix2 j⟩
  rw [broadcastTo_1b_ab_apply, shapeCast_a_1a_apply]
  refine congrArg (fun z => FloatOps.addf (F := Ideal) (∑ k : Fin 128, x0 (lb (ix2 p q) k) * x1 (rb (ix2 p q) k)) (x2 z)) (funext fun a => ?_)
  match a with
  | ⟨0, _⟩ => rfl

/-- The index maps over the grid: point t's input and output blocks are the t-th band of 2000 nodes; the weights and the bias row are
    one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Every band of 2000 nodes is some point's output block. -/
theorem idx_onto : ∀ q0 : Fin 25, ∃ t : Fin cfg4.N, win4_3.index t = ![q0.val, 0] :=
  (by decide +kernel : ∀ q0 : Fin 25, ∃ t : Fin grid4.N, win4_3.index t = ![q0.val, 0])

variable (V : (c : Dev nD) → (b : Ref sig .tc) → Buf (Elt Ideal) ((c : Thread nD τ).loc b))

/-- What point t writes back is block t of the dense layer of the arrays the region finds. -/
theorem flushed_eq (c : Dev nD) (t : Fin cfg4.N) :
    (dat4 V c).flushed 3 t = ((cfg4.win 3).blk t).view.read (Elt Ideal) (RefOps.head (F := Ideal) (V c main_v59) (V c main_arg6) (V c main_arg7)) := by
  show (cfg4.win 3).cut (grid4.coords t) ((dat4 V c).after 3 t) = _
  rw [after4_3]
  unfold out4_3
  rw [View.canon_unit_zero hz2]
  simp only [View.ld_unit_zero (S := S2000x128) hz2, View.ld_unit_zero (S := S128x7) hz2, View.ld_unit_zero (S := S7) hz1]
  funext j
  show k4_pay1 (iblk4 V c 0 t) (iblk4 V c 1 t) (iblk4 V c 2 t) j = RefOps.head (F := Ideal) (V c main_v59) (V c main_arg6) (V c main_arg7) (((cfg4.win 3).blk t).view.emb j)
  rw [pay_apply, RefOps.head_apply]
  obtain ⟨e0, e1, e2, e3, e6, e4, e5⟩ := idx_facts t
  have h2 : iblk4 V c 2 t (col j) = V c main_arg7 (idx_main_v94 (idx_main_v95 (((cfg4.win 3).blk t).view.emb j))) := by
    show V c main_arg7 (((cfg4.win 2).blk t).view.emb (col j)) = _
    refine congrArg (V c main_arg7) (funext fun a => Fin.ext ?_)
    match a with
    | ⟨0, _⟩ => show win4_2.index t (0 : Fin 1) * 7 + 1 * (j 1).val = win4_3.index t (1 : Fin 2) * 7 + 1 * (j 1).val; omega
  rw [h2]
  refine congrArg (fun z => FloatOps.addf (F := Ideal) z _) (Finset.sum_congr rfl fun k _ => ?_)
  have h0 : iblk4 V c 0 t (lb j k) = V c main_v59 (lidx_main_v93 (((cfg4.win 3).blk t).view.emb j) k) := by
    show V c main_v59 (((cfg4.win 0).blk t).view.emb (lb j k)) = _
    refine congrArg (V c main_v59) (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 128 + 1 * k.val = k.val; omega
  have h1 : iblk4 V c 1 t (rb j k) = V c main_arg6 (ridx_main_v93 (((cfg4.win 3).blk t).view.emb j) k) := by
    show V c main_arg6 (((cfg4.win 1).blk t).view.emb (rb j k)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 7 + 1 * (j 1).val = win4_3.index t (1 : Fin 2) * 7 + 1 * (j 1).val; omega
  rw [h0, h1]

/-- An index of the array is in point t's block iff each coordinate is in the block's range on its axis. -/
theorem mem_blk (t : Fin cfg4.N) (i : S50000x7.Idx) :
    i ∈ ((cfg4.win 3).blk t).view.set ↔ ∀ a : Fin 2, win4_3.index t a * S2000x7.size a ≤ (i a).val ∧ (i a).val < win4_3.index t a * S2000x7.size a + S2000x7.size a := by
  show i ∈ ((View.whole main_v60).slice (win4_3.rect t)).set ↔ _
  rw [View.set_slice_whole, Rect.mem_set_unit]
  exact Iff.rfl

/-- The 25 bands cover the 50000 nodes: node n is in band n / 2000. -/
theorem cover (i : S50000x7.Idx) : ∃ t : Fin cfg4.N, (cfg4.win 3).flush t = true ∧ i ∈ ((cfg4.win 3).blk t).view.set := by
  have hi0 : (i 0).val < 50000 := (i 0).isLt
  have hi1 : (i 1).val < 7 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 7 ≤ (i 1).val ∧ (i 1).val < win4_3.index t (1 : Fin 2) * 7 + 7; omega

/-- THE REGION'S ARRAY after its run: the dense layer of the arrays it found. -/
theorem final (c : Dev nD) : (dat4 V c).arrAt 3 cfg4.N = RefOps.head (F := Ideal) (V c main_v59) (V c main_arg6) (V c main_arg7) :=
  (dat4 V c).arrAt_eq_of_cover 3 _ (fun t _ => flushed_eq V c t) cover

end Cert.KernelIdeal.Region4

end
-- ==== Proof.Chain.lean ====
/-
  The kernel's program, boundary by boundary. Its main function is ten segments: three host stretches (endpoint
  lists, degrees, edge weights), the first dense region, the first aggregation, the relu region, the second dense
  region, the second aggregation, the leaky-relu region and the head. After each segment, the buffers the later
  segments read hold the reference's stage of the same meaning, of the launch arguments:

      endpoints, edge weights → x · W₁ → aggregate → max (· + b₁, 0) → · W₂ → aggregate → leaky (· + b₂) → · Wₘ + bₘ.

  A region's array is the whole-array function its module proves, of the arrays it finds; a host stretch's result is
  the stretch's own composed term of what it finds; a buffer that a segment does not write is carried over. The last
  line is the kernel's result as the reference's last stage.
-/
import proofs.«135966_j55207509623327_1_alg».proof.Proof.Gen.KernelIdeal.Frame
import proofs.«135966_j55207509623327_1_alg».proof.Proof.HostStretches
import proofs.«135966_j55207509623327_1_alg».proof.Proof.Region0
import proofs.«135966_j55207509623327_1_alg».proof.Proof.Region1
import proofs.«135966_j55207509623327_1_alg».proof.Proof.Region2
import proofs.«135966_j55207509623327_1_alg».proof.Proof.Region3
import proofs.«135966_j55207509623327_1_alg».proof.Proof.Region4

set_option maxRecDepth 16384

noncomputable section

namespace Cert.KernelIdeal.Chain

open Cert.KernelIdeal Cert.KernelIdeal.Gen Idealize.ShloMosaic Idealize.ShloMosaic.TcCoe Idealize.SL.Sem
open Cert.KernelIdeal.HostStretches
open Cert.ReferenceIdeal.PRead (val_main_v3 val_main_v6 val_main_v30 val_main_v7 val_main_v43 val_main_v47 val_main_v48 val_main_v71 val_main_v84 val_main_v92 val_main_v96)

variable (m : (ℓ : Loc nD τ sig) → Buf (Elt Ideal) ℓ) (ρ : Dev nD → PrngReg) (c : Dev nD)

/-! ## After the three opening host stretches (the first dense region's entry) -/

theorem W3_arg0 : W3 m ρ c (Proc.devRef .tc main_arg0) = (m ((c : Thread nD τ).loc main_arg0)) :=
  (hostOps0_2_keeps_arg0 _).trans ((hostOps0_1_keeps_arg0 _).trans ((hostOps0_keeps_arg0 _).trans rfl))
theorem W3_arg2 : W3 m ρ c (Proc.devRef .tc main_arg2) = (m ((c : Thread nD τ).loc main_arg2)) :=
  (hostOps0_2_keeps_arg2 _).trans ((hostOps0_1_keeps_arg2 _).trans ((hostOps0_keeps_arg2 _).trans rfl))
theorem W3_arg3 : W3 m ρ c (Proc.devRef .tc main_arg3) = (m ((c : Thread nD τ).loc main_arg3)) :=
  (hostOps0_2_keeps_arg3 _).trans ((hostOps0_1_keeps_arg3 _).trans ((hostOps0_keeps_arg3 _).trans rfl))
theorem W3_arg4 : W3 m ρ c (Proc.devRef .tc main_arg4) = (m ((c : Thread nD τ).loc main_arg4)) :=
  (hostOps0_2_keeps_arg4 _).trans ((hostOps0_1_keeps_arg4 _).trans ((hostOps0_keeps_arg4 _).trans rfl))
theorem W3_arg5 : W3 m ρ c (Proc.devRef .tc main_arg5) = (m ((c : Thread nD τ).loc main_arg5)) :=
  (hostOps0_2_keeps_arg5 _).trans ((hostOps0_1_keeps_arg5 _).trans ((hostOps0_keeps_arg5 _).trans rfl))
theorem W3_arg6 : W3 m ρ c (Proc.devRef .tc main_arg6) = (m ((c : Thread nD τ).loc main_arg6)) :=
  (hostOps0_2_keeps_arg6 _).trans ((hostOps0_1_keeps_arg6 _).trans ((hostOps0_keeps_arg6 _).trans rfl))
theorem W3_arg7 : W3 m ρ c (Proc.devRef .tc main_arg7) = (m ((c : Thread nD τ).loc main_arg7)) :=
  (hostOps0_2_keeps_arg7 _).trans ((hostOps0_1_keeps_arg7 _).trans ((hostOps0_keeps_arg7 _).trans rfl))

theorem W3_v3 : W3 m ρ c (Proc.devRef .tc main_v3) = val_main_v3 (F := Ideal) (m ((c : Thread nD τ).loc main_arg1)) :=
  (hostOps0_2_keeps_v3 _).trans ((hostOps0_1_keeps_v3 _).trans (src_eq (W0 m ρ c)))
theorem W3_v6 : W3 m ρ c (Proc.devRef .tc main_v6) = val_main_v6 (F := Ideal) (m ((c : Thread nD τ).loc main_arg1)) :=
  (hostOps0_2_keeps_v6 _).trans ((hostOps0_1_keeps_v6 _).trans (dst_eq (W0 m ρ c)))
theorem W3_v29 : W3 m ρ c (Proc.devRef .tc main_v29) = val_main_v30 (F := Ideal) (m ((c : Thread nD τ).loc main_arg1)) :=
  norm_eq (W0 m ρ c)

/-! ## After the first dense region -/

theorem W4_v30 : W4 m ρ c (Proc.devRef .tc main_v30) = RefOps.dense1 (F := Ideal) (m ((c : Thread nD τ).loc main_arg0)) (m ((c : Thread nD τ).loc main_arg2)) := by
  refine (W4_arr m ρ c 2).trans ((Region0.final (V3 m ρ) c).trans ?_)
  show RefOps.dense1 (F := Ideal) (W3 m ρ c (Proc.devRef .tc main_arg0)) (W3 m ρ c (Proc.devRef .tc main_arg2)) = _
  rw [W3_arg0, W3_arg2]
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v30 (F := Ideal) (m ((c : Thread nD τ).loc main_arg1)) := (W4_of_ne m ρ c main_v29 (by decide)).trans (W3_v29 m ρ c)

/-! ## After the first aggregation (the relu region's entry) -/

theorem W5_v43 : W5 m ρ c (Proc.devRef .tc main_v43) = val_main_v43 (F := Ideal) (m ((c : Thread nD τ).loc main_arg0)) (m ((c : Thread nD τ).loc main_arg1)) (m ((c : Thread nD τ).loc main_arg2)) := by
  refine (agg1_eq (W4 m ρ c)).trans ?_
  rw [W4_v30, W4_v3, W4_v6, W4_v29, RefOps.stage_v43]
theorem W5_arg3 : W5 m ρ c (Proc.devRef .tc main_arg3) = (m ((c : Thread nD τ).loc main_arg3)) := (hostOps1_keeps_arg3 _).trans (W4_arg3 m ρ c)
theorem W5_arg4 : W5 m ρ c (Proc.devRef .tc main_arg4) = (m ((c : Thread nD τ).loc main_arg4)) := (hostOps1_keeps_arg4 _).trans (W4_arg4 m ρ c)
theorem W5_arg5 : W5 m ρ c (Proc.devRef .tc main_arg5) = (m ((c : Thread nD τ).loc main_arg5)) := (hostOps1_keeps_arg5 _).trans (W4_arg5 m ρ c)
theorem W5_arg6 : W5 m ρ c (Proc.devRef .tc main_arg6) = (m ((c : Thread nD τ).loc main_arg6)) := (hostOps1_keeps_arg6 _).trans (W4_arg6 m ρ c)
theorem W5_arg7 : W5 m ρ c (Proc.devRef .tc main_arg7) = (m ((c : Thread nD τ).loc main_arg7)) := (hostOps1_keeps_arg7 _).trans (W4_arg7 m ρ c)
theorem W5_v3 : W5 m ρ c (Proc.devRef .tc main_v3) = val_main_v3 (F := Ideal) (m ((c : Thread nD τ).loc main_arg1)) := (hostOps1_keeps_v3 _).trans (W4_v3 m ρ c)
theorem W5_v6 : W5 m ρ c (Proc.devRef .tc main_v6) = val_main_v6 (F := Ideal) (m ((c : Thread nD τ).loc main_arg1)) := (hostOps1_keeps_v6 _).trans (W4_v6 m ρ c)
theorem W5_v29 : W5 m ρ c (Proc.devRef .tc main_v29) = val_main_v30 (F := Ideal) (m ((c : Thread nD τ).loc main_arg1)) := (hostOps1_keeps_v29 _).trans (W4_v29 m ρ c)

/-! ## After the relu region (the second dense region's entry) -/

theorem W6_v44 : W6 m ρ c (Proc.devRef .tc main_v44) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region1.final (V5 m ρ) c).trans ?_)
  show RefOps.biasRelu (F := Ideal) (W5 m ρ c (Proc.devRef .tc main_v43)) (W5 m ρ c (Proc.devRef .tc main_arg3)) = _
  rw [W5_v43, W5_arg3, RefOps.stage_v47]
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_v3 : W6 m ρ c (Proc.devRef .tc main_v3) = val_main_v3 (F := Ideal) (m ((c : Thread nD τ).loc main_arg1)) := (W6_of_ne m ρ c main_v3 (by decide)).trans (W5_v3 m ρ c)
theorem W6_v6 : W6 m ρ c (Proc.devRef .tc main_v6) = val_main_v6 (F := Ideal) (m ((c : Thread nD τ).loc main_arg1)) := (W6_of_ne m ρ c main_v6 (by decide)).trans (W5_v6 m ρ c)
theorem W6_v29 : W6 m ρ c (Proc.devRef .tc main_v29) = val_main_v30 (F := Ideal) (m ((c : Thread nD τ).loc main_arg1)) := (W6_of_ne m ρ c main_v29 (by decide)).trans (W5_v29 m ρ c)

/-! ## After the second dense region -/

theorem W7_v45 : W7 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region2.final (V6 m ρ) c).trans ?_)
  show RefOps.dense2 (F := Ideal) (W6 m ρ c (Proc.devRef .tc main_v44)) (W6 m ρ c (Proc.devRef .tc main_arg4)) = _
  rw [W6_v44, W6_arg4, RefOps.stage_v48]
theorem W7_arg5 : W7 m ρ c (Proc.devRef .tc main_arg5) = (m ((c : Thread nD τ).loc main_arg5)) := (W7_of_ne m ρ c main_arg5 (by decide)).trans (W6_arg5 m ρ c)
theorem W7_arg6 : W7 m ρ c (Proc.devRef .tc main_arg6) = (m ((c : Thread nD τ).loc main_arg6)) := (W7_of_ne m ρ c main_arg6 (by decide)).trans (W6_arg6 m ρ c)
theorem W7_arg7 : W7 m ρ c (Proc.devRef .tc main_arg7) = (m ((c : Thread nD τ).loc main_arg7)) := (W7_of_ne m ρ c main_arg7 (by decide)).trans (W6_arg7 m ρ c)
theorem W7_v3 : W7 m ρ c (Proc.devRef .tc main_v3) = val_main_v3 (F := Ideal) (m ((c : Thread nD τ).loc main_arg1)) := (W7_of_ne m ρ c main_v3 (by decide)).trans (W6_v3 m ρ c)
theorem W7_v6 : W7 m ρ c (Proc.devRef .tc main_v6) = val_main_v6 (F := Ideal) (m ((c : Thread nD τ).loc main_arg1)) := (W7_of_ne m ρ c main_v6 (by decide)).trans (W6_v6 m ρ c)
theorem W7_v29 : W7 m ρ c (Proc.devRef .tc main_v29) = val_main_v30 (F := Ideal) (m ((c : Thread nD τ).loc main_arg1)) := (W7_of_ne m ρ c main_v29 (by decide)).trans (W6_v29 m ρ c)

/-! ## After the second aggregation (the leaky-relu region's entry) -/

theorem W8_v58 : W8 m ρ c (Proc.devRef .tc main_v58) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (agg2_eq (W7 m ρ c)).trans ?_
  rw [W7_v45, W7_v3, W7_v6, W7_v29, RefOps.stage_v84, RefOps.stage_v71]
theorem W8_arg5 : W8 m ρ c (Proc.devRef .tc main_arg5) = (m ((c : Thread nD τ).loc main_arg5)) := (hostOps3_keeps_arg5 _).trans (W7_arg5 m ρ c)
theorem W8_arg6 : W8 m ρ c (Proc.devRef .tc main_arg6) = (m ((c : Thread nD τ).loc main_arg6)) := (hostOps3_keeps_arg6 _).trans (W7_arg6 m ρ c)
theorem W8_arg7 : W8 m ρ c (Proc.devRef .tc main_arg7) = (m ((c : Thread nD τ).loc main_arg7)) := (hostOps3_keeps_arg7 _).trans (W7_arg7 m ρ c)

/-! ## After the leaky-relu region (the head's entry) -/

theorem W9_v59 : W9 m ρ c (Proc.devRef .tc main_v59) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c).trans ?_)
  show RefOps.biasLeaky (F := Ideal) (W8 m ρ c (Proc.devRef .tc main_v58)) (W8 m ρ c (Proc.devRef .tc main_arg5)) = _
  rw [W8_v58, W8_arg5, RefOps.stage_v92]
theorem W9_arg6 : W9 m ρ c (Proc.devRef .tc main_arg6) = (m ((c : Thread nD τ).loc main_arg6)) := (W9_of_ne m ρ c main_arg6 (by decide)).trans (W8_arg6 m ρ c)
theorem W9_arg7 : W9 m ρ c (Proc.devRef .tc main_arg7) = (m ((c : Thread nD τ).loc main_arg7)) := (W9_of_ne m ρ c main_arg7 (by decide)).trans (W8_arg7 m ρ c)

/-! ## After the head: the kernel's result -/

/-- The result buffer ends at the reference's last stage of the launch arguments. -/
theorem result_eq : W10 m ρ c (Proc.devRef .tc main_v60) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Region4.final (V9 m ρ) c).trans ?_)
  show RefOps.head (F := Ideal) (W9 m ρ c (Proc.devRef .tc main_v59)) (W9 m ρ c (Proc.devRef .tc main_arg6)) (W9 m ρ c (Proc.devRef .tc main_arg7)) = _
  rw [W9_v59, W9_arg6, W9_arg7, RefOps.stage_v96]

end Cert.KernelIdeal.Chain

end
-- ==== Proof.lean ====
/-
  A two-layer graph convolution network with a dense head, on 50000 nodes and 800000 edges (plus one self loop per
  node): for an edge list (source, destination), deg[d] counts the edges into d, dinv = deg^(-1/2) where deg > 0 and
  0 elsewhere, and every edge e carries the weight  norm[e] = dinv[source e] · dinv[destination e]. A layer maps node
  features h to  A(h · W) + b, where A sums, into every node d, norm[e] · (h · W)[source e, ·] over the edges e into d;
  the network is

      out = leaky (A (relu (A (x · W₁) + b₁) · W₂) + b₂) · Wₘ + bₘ .

  The kernel's program computes the endpoint lists, the degrees, the edge weights and both aggregations A on the host,
  with the very operations the reference uses, and runs five grid regions for the rest: the three dense products (25
  bands of 2000 nodes each against the whole weight array; the head with its bias) and the two bias-plus-activation
  passes. Over the extended reals a band's product has, at every entry, the sum over the contracted features that
  the product of the whole arrays has there, and the activations act entry by entry; so each region leaves the
  reference's whole-array operation of the arrays it finds, and the program's result is the reference's, stage by
  stage (the reference computes the edge weights once per layer; the two computations are one function).

  The three frames: the two kernel programs by their launch over the ten segments; the reference by its run.
  The idealization rewrote nothing, so there is nothing to preserve. The value claim: the kernel's run with its
  result buffer named at the last boundary's contents, those contents the reference's last stage of the arguments,
  and the reference's run ending at that stage.
-/
import proofs.«135966_j55207509623327_1_alg».proof.Defs
import proofs.«135966_j55207509623327_1_alg».proof.Proof.Gen.Kernel
import proofs.«135966_j55207509623327_1_alg».proof.Proof.Gen.Kernel.Frame
import proofs.«135966_j55207509623327_1_alg».proof.Proof.Gen.KernelIdeal
import proofs.«135966_j55207509623327_1_alg».proof.Proof.Gen.KernelIdeal.Frame
import proofs.«135966_j55207509623327_1_alg».proof.Proof.Gen.ReferenceIdeal
import proofs.«135966_j55207509623327_1_alg».proof.Proof.Gen.Pre_finite_inputs
import proofs.«135966_j55207509623327_1_alg».proof.Proof.KernelRun
import proofs.«135966_j55207509623327_1_alg».proof.Proof.RefRun
import proofs.«135966_j55207509623327_1_alg».proof.Proof.RefRead
import proofs.«135966_j55207509623327_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.PValue.run (F := Ideal) m ρ)

/-- From memories that agree on the arguments both programs end with the network's output: the kernel's result
    buffer at the last boundary's contents, which are the reference's last stage of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v60),
    Cert.KernelIdeal.GenRun.run_named m ρ, ?_⟩
  refine (θ_run Cert.ReferenceIdeal.defs _ _).mono (fun _ h c => ⟨(h c).1.trans ?_, (h c).2⟩)
    (Cert.ReferenceIdeal.PValue.run (F := Ideal) m' ρ')
  obtain ⟨h0, h1, h2, h3, h4, h5, h6, h7⟩ := hagree c
  rw [Cert.ReferenceIdeal.PRead.val_main_v96_eq, h0, h1, h2, h3, h4, h5, h6, h7]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
